-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S2048x1 : Shape := ⟨2, ![2048, 1]⟩
abbrev S512x2048 : Shape := ⟨2, ![512, 2048]⟩
abbrev S512x1 : Shape := ⟨2, ![512, 1]⟩
abbrev S512 : Shape := ⟨1, ![512]⟩
abbrev S1x2048 : Shape := ⟨2, ![1, 2048]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x1, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S2048x1_S2048 : S2048x1.ShapeCasts S2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S2048x1.size a
  hwx0_1 : ∀ i : grid0.Coords, EltTy.bits .f32 = 32 ∨ (Rect.block (s := S2048x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x2048.size a
  hwx1_3 : ∀ i : grid1.Coords, EltTy.bits .f32 = 32 ∨ (Rect.block (s := S8192x2048) S512x2048.size (cc1_transform_3 i) (hinb1_3 i)).WholeWords (EltTy.packing .f32)

variable [Facts₀]

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S2048, .f32⟩
  | .hbm, ⟨7, _⟩ => ⟨S8192x1, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S1x2048, .f32⟩
  | .hbm, ⟨13, _⟩ => ⟨S8192x2048, .f32⟩
  | .hbm, ⟨14, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  reducesTo_S2048x2048_S2048_d1 : S2048x2048.ReducesTo [1] S2048
  bcast_S8192_S8192x1_0 : S8192.BroadcastsInDim S8192x1 (![0] : Fin 1 → Fin S8192x1.rank)
  bcast_S2048_S1x2048_1 : S2048.BroadcastsInDim S1x2048 (![1] : Fin 1 → Fin S1x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)

variable [Facts₀]

class Facts : Prop extends Facts₀ where

variable [Facts]
-- ==== Proof.Spec.lean ====
/-
  The function both programs compute, and the one law that joins their two arrangements.

  With rowSum a p = Σ_i a[p, i], the kernel forms  rowSum x b · bias o + rowSum w o · bias o  (the weight sums are
  scaled by the bias before the second launch), the reference  (rowSum x b + rowSum w o) · bias o.  On the extended
  reals multiplication distributes over a sum only away from the infinities, so the law is proved for arrays whose
  entries are all real numbers: a finite sum of reals is a real, and on the reals it is the ring's distributivity.
-/
import Idealize.ShloMosaic.PureOps.Ideal
import Idealize.ShloMosaic.Lib.ValueIdx

noncomputable section

open scoped BigOperators

namespace Cert.Adder

open Idealize.ShloMosaic Idealize.ShloMosaic.ValueIdx

/-- The sum of row `p` of a two-axis array. -/
def rowSum {n k : Nat} (a : (⟨2, ![n, k]⟩ : Shape).Idx → EReal) (p : Fin n) : EReal := ∑ i : Fin k, a (ix2 p i)

/-- The kernel's arrangement: each row sum is multiplied by the bias entry on its own, then the two products are added. -/
def outK (x : (⟨2, ![8192, 2048]⟩ : Shape).Idx → EReal) (w : (⟨2, ![2048, 2048]⟩ : Shape).Idx → EReal)
    (b : (⟨1, ![2048]⟩ : Shape).Idx → EReal) : (⟨2, ![8192, 2048]⟩ : Shape).Idx → EReal :=
  fun j => rowSum x (j 0) * b (ix1 (j 1)) + rowSum w (j 1) * b (ix1 (j 1))

/-- The reference's arrangement: the two row sums are added first, the sum is multiplied by the bias entry. -/
def outR (x : (⟨2, ![8192, 2048]⟩ : Shape).Idx → EReal) (w : (⟨2, ![2048, 2048]⟩ : Shape).Idx → EReal)
    (b : (⟨1, ![2048]⟩ : Shape).Idx → EReal) : (⟨2, ![8192, 2048]⟩ : Shape).Idx → EReal :=
  fun j => (rowSum x (j 0) + rowSum w (j 1)) * b (ix1 (j 1))

/-- Every entry of the array is a real number (neither infinity). -/
def AllReal {S : Shape} (a : S.Idx → EReal) : Prop := ∀ i, ∃ r : ℝ, a i = (r : EReal)

/-- A finite sum of real numbers, taken in the extended reals, is the real sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- A row of real numbers has a real sum. -/
theorem rowSum_real {n k : Nat} (a : (⟨2, ![n, k]⟩ : Shape).Idx → EReal) (ha : AllReal a) (p : Fin n) :
    ∃ r : ℝ, rowSum a p = (r : EReal) := by
  choose f hf using ha
  refine ⟨∑ i : Fin k, f (ix2 p i), ?_⟩
  unfold rowSum
  simp only [hf]
  exact sum_coe _ _

/-- On arrays of real numbers the two arrangements agree: (r + s)·t = r·t + s·t. -/
theorem outK_eq_outR (x : (⟨2, ![8192, 2048]⟩ : Shape).Idx → EReal) (w : (⟨2, ![2048, 2048]⟩ : Shape).Idx → EReal)
    (b : (⟨1, ![2048]⟩ : Shape).Idx → EReal) (hx : AllReal x) (hw : AllReal w) (hb : AllReal b) :
    outK x w b = outR x w b := by
  funext j
  obtain ⟨r, hr⟩ := rowSum_real x hx (j 0)
  obtain ⟨s, hs⟩ := rowSum_real w hw (j 1)
  obtain ⟨t, ht⟩ := hb (ix1 (j 1))
  show rowSum x (j 0) * b (ix1 (j 1)) + rowSum w (j 1) * b (ix1 (j 1)) = (rowSum x (j 0) + rowSum w (j 1)) * b (ix1 (j 1))
  rw [hr, hs, ht, ← EReal.coe_mul, ← EReal.coe_mul, ← EReal.coe_add, ← EReal.coe_add, ← EReal.coe_mul, add_mul]

end Cert.Adder

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.WeightSums.lean ====
/-
  The first launch's result array as one function of the array it reads.

  The launch walks 4 grid points; at point t it reads rows 512·t … 512·t+511 of the 2048 × 2048 weight array (all 2048
  columns) and stores, as a 512 × 1 column, each of those rows' sums. The column blocks tile the 2048 × 1 result, so after
  the launch entry (o, 0) of the result is the sum of row o of the weights.
-/
import proofs.«119376_j30133490549220_1_alg».proof.Proof.Gen.KernelIdeal.Frame
import proofs.«119376_j30133490549220_1_alg».proof.Proof.Spec
import proofs.«119376_j30133490549220_1_alg».proof.Proof.LibKeepdims
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.WeightSums

open Cert.KernelIdeal Cert.KernelIdeal.Gen Cert.Adder
open Idealize.ShloMosaic Idealize.ShloMosaic.TcCoe Idealize.ShloMosaic.ValueIdx Idealize.SL.Sem

theorem hz : (![0, 0] : Fin 2 → Nat) = fun _ => 0 := funext fun a => by fin_cases a <;> rfl

/-- The stored column at (p, u) is the sum of row p of the loaded block: the lane sum over the second axis, recast as a column. -/
theorem pay_apply (x0 : Vec Ideal S512x2048 .f32) (p : Fin 512) (u : Fin 1) :
    k0_pay1 (F := Ideal) x0 (ix2 p u) = ∑ i : Fin 2048, x0 (ix2 p i) := by
  unfold k0_pay1
  refine (Keepdims.shapeCast_a_a1_apply _ shapeCasts_S512_S512x1 p u).trans ?_
  refine (Ideal.multiReduction_add_single (φ := .f32) x0 _ reduces_S512x2048_S512 (.inl rfl) rfl (ix1 p)).trans ?_
  exact Finset.sum_congr rfl fun k _ => congrArg x0 (funext fun a => Fin.ext (by match a with | ⟨0, _⟩ => rfl | ⟨1, _⟩ => rfl))

/-- Both windows move down the rows with the grid point, one block per point, and neither moves along the columns. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 3 :=
  (by decide +kernel : ∀ t : Fin grid0.N, _)

/-- Each of the four row blocks of the result is some point's. -/
theorem idx_onto : ∀ q0 : Fin 4, ∃ t : Fin cfg0.N, win0_1.index t = ![q0.val, 0] :=
  (by decide +kernel : ∀ q0 : Fin 4, ∃ t : Fin grid0.N, win0_1.index t = ![q0.val, 0])

variable (V : (c : Dev nD) → (b : Ref sig .tc) → Buf (Elt Ideal) ((c : Thread nD τ).loc b))

/-- The array the launch reads, as the launch finds it, at its literal type. -/
abbrev warr (c : Dev nD) : S2048x2048.Idx → EReal := V c main_arg1

/-- The result the launch leaves: at (o, ·) the sum of row o of the array the launch reads. -/
abbrev sums (c : Dev nD) : S2048x1.Idx → EReal := fun j => rowSum (warr V c) (j 0)

/-- What point t writes back is block t of that function. -/
theorem flushed_eq (c : Dev nD) (t : Fin cfg0.N) :
    (dat0 V c).flushed 1 t = ((cfg0.win 1).blk t).view.read (Elt Ideal) (sums V c) := by
  show (cfg0.win 1).cut (grid0.coords t) ((dat0 V c).after 1 t) = _
  rw [after0_1]
  unfold out0_1
  rw [View.canon_unit_zero hz]
  simp only [View.ld_unit_zero (S := S512x2048) hz]
  obtain ⟨e0, e1, e2, e3⟩ := idx_facts t
  funext y
  obtain ⟨p, u, rfl⟩ : ∃ (p : Fin 512) (u : Fin 1), y = ix2 p u := ⟨y 0, y 1, eq_ix2 y⟩
  refine (pay_apply (iblk0 V c 0 t) p u).trans ?_
  show (∑ i : Fin 2048, warr V c (((cfg0.win 0).blk t).view.emb (ix2 p i)))
    = ∑ i : Fin 2048, warr V c (ix2 ((((cfg0.win 1).blk t).view.emb (ix2 p u)) 0) i)
  refine Finset.sum_congr rfl fun i _ => congrArg (warr V c) ?_
  funext a; apply Fin.ext
  match a with
  | ⟨0, _⟩ => show win0_0.index t (0 : Fin 2) * 512 + 1 * p.val = win0_1.index t (0 : Fin 2) * 512 + 1 * p.val; omega
  | ⟨1, _⟩ => show win0_0.index t (1 : Fin 2) * 2048 + 1 * i.val = i.val; omega

/-- An index of the result is in point t's block iff each coordinate is in the block's range on its axis. -/
theorem mem_blk (t : Fin cfg0.N) (i : S2048x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Every entry of the result is written back by the point of its row block, row / 512. -/
theorem cover (i : S2048x1.Idx) : ∃ t : Fin cfg0.N, (cfg0.win 1).flush t = true ∧ i ∈ ((cfg0.win 1).blk t).view.set := by
  have hi0 : (i 0).val < 2048 := (i 0).isLt
  have hi1 : (i 1).val < 1 := (i 1).isLt
  obtain ⟨t, ht⟩ := idx_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 1 ≤ (i 1).val ∧ (i 1).val < win0_1.index t (1 : Fin 2) * 1 + 1; omega

/-- The result array after the launch: the row sums of the array it reads. -/
theorem final (c : Dev nD) : (dat0 V c).arrAt 1 cfg0.N = sums V c :=
  (dat0 V c).arrAt_eq_of_cover 1 (sums V c) (fun t _ => flushed_eq V c t) cover

end Cert.KernelIdeal.WeightSums

end
-- ==== Proof.Combine.lean ====
/-
  The second launch's result array as one function of the three arrays it reads.

  The launch walks 16 grid points; at point t it reads rows 512·t … 512·t+511 of the 8192 × 2048 array x and, at every
  point, the same two 1 × 2048 rows s and a. It stores the 512 × 2048 block whose entry (p, q) is
  (sum of row p of the x block) · s[0, q] + a[0, q]: the row sum is taken over the lanes, recast as a column and spread
  along the row; the two single rows are spread down the rows. The blocks tile the result, so after the launch entry
  (b, o) of the result is  (sum of row b of x) · s[0, o] + a[0, o].
-/
import proofs.«119376_j30133490549220_1_alg».proof.Proof.Gen.KernelIdeal.Frame
import proofs.«119376_j30133490549220_1_alg».proof.Proof.Spec
import proofs.«119376_j30133490549220_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Combine

open Cert.KernelIdeal Cert.KernelIdeal.Gen Cert.Adder
open Idealize.ShloMosaic Idealize.ShloMosaic.TcCoe Idealize.ShloMosaic.ValueIdx Idealize.SL.Sem

theorem hz : (![0, 0] : Fin 2 → Nat) = fun _ => 0 := funext fun a => by fin_cases a <;> rfl

/-- The lane sum of the block, recast as a column and spread along the row, reads at (p, q) the sum of row p. -/
theorem spread_sum (x0 : Vec Ideal S512x2048 .f32) (p : Fin 512) (q : Fin 2048) :
    broadcastTo S512x2048 (shapeCast S512x1 (multiReduction (F := Ideal) .add [1] S512 x0 0x00000000#32 reduces_S512x2048_S512 (.inl rfl) rfl)
      shapeCasts_S512_S512x1) broadcasts_S512x1_S512x2048 (ix2 p q) = ∑ i : Fin 2048, x0 (ix2 p i) := by
  refine (Keepdims.broadcastTo_a1_ab_apply _ broadcasts_S512x1_S512x2048 p q).trans ?_
  refine (Keepdims.shapeCast_a_a1_apply _ shapeCasts_S512_S512x1 p (0 : Fin 1)).trans ?_
  refine (Ideal.multiReduction_add_single (φ := .f32) x0 _ reduces_S512x2048_S512 (.inl rfl) rfl (ix1 p)).trans ?_
  exact Finset.sum_congr rfl fun k _ => congrArg x0 (funext fun a => Fin.ext (by match a with | ⟨0, _⟩ => rfl | ⟨1, _⟩ => rfl))

/-- A single row, recast to its own shape and spread down the rows, reads at (p, q) its entry q. -/
theorem spread_row (v : Vec Ideal S1x2048 .f32) (p : Fin 512) (q : Fin 2048) :
    broadcastTo S512x2048 (shapeCast S1x2048 v shapeCasts_S1x2048_S1x2048) broadcasts_S1x2048_S512x2048 (ix2 p q)
      = v (ix2 (0 : Fin 1) q) := by
  rw [shapeCast_self]
  exact broadcastTo_1b_ab_apply v broadcasts_S1x2048_S512x2048 p q

/-- The stored block at (p, q): the row sum of the x block times the first row's entry, plus the second row's entry. -/
theorem pay_apply (x0 : Vec Ideal S512x2048 .f32) (x1 x2 : Vec Ideal S1x2048 .f32) (p : Fin 512) (q : Fin 2048) :
    k1_pay1 (F := Ideal) x0 x1 x2 (ix2 p q) = (∑ i : Fin 2048, x0 (ix2 p i)) * x1 (ix2 (0 : Fin 1) q) + x2 (ix2 (0 : Fin 1) q) := by
  unfold k1_pay1
  dsimp only
  rw [addf_apply, mulf_apply, spread_sum, spread_row, spread_row]

/-- The x window and the result window move down the rows with the grid point and never along the columns; the two
    single-row windows never move. -/
theorem idx_facts : ∀ t : Fin cfg1.N, win1_0.index t (0 : Fin 2) = win1_3.index t (0 : Fin 2)
    ∧ win1_0.index t (1 : Fin 2) = 0 ∧ win1_3.index t (1 : Fin 2) = 0 ∧ win1_3.index t (0 : Fin 2) ≤ 15
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Each of the sixteen row blocks of the result is some point's. -/
theorem idx_onto : ∀ q0 : Fin 16, ∃ t : Fin cfg1.N, win1_3.index t = ![q0.val, 0] :=
  (by decide +kernel : ∀ q0 : Fin 16, ∃ t : Fin grid1.N, win1_3.index t = ![q0.val, 0])

variable (V : (c : Dev nD) → (b : Ref sig .tc) → Buf (Elt Ideal) ((c : Thread nD τ).loc b))

/-- The three arrays the launch reads, as the launch finds them, at their literal types. -/
abbrev xarr (c : Dev nD) : S8192x2048.Idx → EReal := V c main_arg0
abbrev srow (c : Dev nD) : S1x2048.Idx → EReal := V c main_v3
abbrev arow (c : Dev nD) : S1x2048.Idx → EReal := V c main_v4

/-- The result the launch leaves: at (b, o), (sum of row b of x) · s[0, o] + a[0, o]. -/
abbrev result (c : Dev nD) : S8192x2048.Idx → EReal :=
  fun j => rowSum (xarr V c) (j 0) * srow V c (ix2 (0 : Fin 1) (j 1)) + arow V c (ix2 (0 : Fin 1) (j 1))

/-- What point t writes back is block t of that function. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S512x2048) hz, View.ld_unit_zero (S := S1x2048) hz]
  obtain ⟨e0, e1, e2, e3, e4, e5, e6, e7⟩ := idx_facts t
  funext y
  obtain ⟨p, q, rfl⟩ : ∃ (p : Fin 512) (q : Fin 2048), y = ix2 p q := ⟨y 0, y 1, eq_ix2 y⟩
  refine (pay_apply (iblk1 V c 0 t) (iblk1 V c 1 t) (iblk1 V c 2 t) p q).trans ?_
  show (∑ i : Fin 2048, xarr V c (((cfg1.win 0).blk t).view.emb (ix2 p i)))
        * srow V c (((cfg1.win 1).blk t).view.emb (ix2 (0 : Fin 1) q))
      + arow V c (((cfg1.win 2).blk t).view.emb (ix2 (0 : Fin 1) q))
    = (∑ i : Fin 2048, xarr V c (ix2 ((((cfg1.win 3).blk t).view.emb (ix2 p q)) 0) i))
        * srow V c (ix2 (0 : Fin 1) ((((cfg1.win 3).blk t).view.emb (ix2 p q)) 1))
      + arow V c (ix2 (0 : Fin 1) ((((cfg1.win 3).blk t).view.emb (ix2 p q)) 1))
  have hx : ∀ i : Fin 2048, ((cfg1.win 0).blk t).view.emb (ix2 p i) = ix2 ((((cfg1.win 3).blk t).view.emb (ix2 p q)) 0) i := by
    intro i; funext a; apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 2048 + 1 * i.val = i.val; omega
  have hs : ((cfg1.win 1).blk t).view.emb (ix2 (0 : Fin 1) q) = ix2 (0 : Fin 1) ((((cfg1.win 3).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 2048 + 1 * q.val = win1_3.index t (1 : Fin 2) * 2048 + 1 * q.val; omega
  have ha : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 2048 + 1 * q.val = win1_3.index t (1 : Fin 2) * 2048 + 1 * q.val; omega
  rw [hs, ha]
  exact congrArg (fun z => z * _ + _) (Finset.sum_congr rfl fun i _ => congrArg (xarr V c) (hx i))

/-- An index of the result is in point t's block iff each coordinate is in the block's range on its axis. -/
theorem mem_blk (t : Fin cfg1.N) (i : S8192x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v5).slice (win1_3.rect t)).set ↔ _
  rw [View.set_slice_whole, Rect.mem_set_unit]
  exact Iff.rfl

/-- Every entry of the result is written back by the point of its row block, row / 512. -/
theorem cover (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  obtain ⟨t, ht⟩ := idx_onto ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- The result array after the launch. -/
theorem final (c : Dev nD) : (dat1 V c).arrAt 3 cfg1.N = result V c :=
  (dat1 V c).arrAt_eq_of_cover 3 (result V c) (fun t _ => flushed_eq V c t) cover

end Cert.KernelIdeal.Combine

end
-- ==== Proof.LibColumnToVector.lean ====
/-
  A column recast as a vector, read at an index: an [a, 1] array cast to [a] reads, at i, the column's entry of row i.
  (The converse, [a] → [a, 1], and the row forms [a] → [1, a], [1, a] → [a] are elsewhere; this is the one missing.)
-/
import Idealize.ShloMosaic.Lib.Pipeline.Value
import Idealize.ShloMosaic.Lib.ValueIdx

noncomputable section

namespace Idealize.ShloMosaic.ColumnVector

open Idealize.ShloMosaic Idealize.ShloMosaic.ValueIdx

variable {α : Type}

/-- An `[a, 1]` column cast to `[a]` reads, at `i`, the operand at `(i, 0)`: both positions are the i-th in row-major order. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnVector

end
-- ==== Proof.Between.lean ====
/-
  The kernel program's result as one function of its three arguments.

  Between the two launches the host recasts the first launch's 2048 × 1 column of weight-row sums as a vector, multiplies
  it entry by entry with the bias, and recasts both the bias and that product as 1 × 2048 rows. So the second launch finds
  x as launched, the row s with s[0, o] = bias o, and the row a with a[0, o] = (sum of row o of the weights) · bias o; its
  result, (sum of row b of x) · s[0, o] + a[0, o], is the kernel's arrangement of the specification.
-/
import proofs.«119376_j30133490549220_1_alg».proof.Proof.WeightSums
import proofs.«119376_j30133490549220_1_alg».proof.Proof.Combine
import proofs.«119376_j30133490549220_1_alg».proof.Proof.LibColumnToVector
import Idealize.ShloMosaic.Lib.StableHlo.Run
import Idealize.ShloMosaic.Lib.ValueLayout

set_option maxRecDepth 16384

noncomputable section

open scoped BigOperators

namespace Cert.KernelIdeal.Between

open Cert.KernelIdeal Cert.KernelIdeal.Gen Cert.Adder
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The three arguments as launched, at their literal types. -/
abbrev xin (c : Dev nD) : S8192x2048.Idx → EReal := m ((c.tc : Thread nD τ).loc main_arg0)
abbrev win (c : Dev nD) : S2048x2048.Idx → EReal := m ((c.tc : Thread nD τ).loc main_arg1)
abbrev bin (c : Dev nD) : S2048.Idx → EReal := m ((c.tc : Thread nD τ).loc main_arg2)

/-- The first launch leaves the bias as launched: it is none of that launch's arrays. -/
theorem bias_kept (c : Dev nD) : (W1 m ρ c (Proc.devRef .tc main_arg2) : S2048.Idx → EReal) = bin m c :=
  W1_of_ne m ρ c main_arg2 (by decide)

/-- The first launch leaves in its result the row sums of the weights as launched. -/
theorem sums_left (c : Dev nD) : (W1 m ρ c (Proc.devRef .tc main_v0) : S2048x1.Idx → EReal) = WeightSums.sums (V0 m ρ) c :=
  (W1_arr m ρ c 1).trans (WeightSums.final (V0 m ρ) c)

/-- The second launch finds x as launched: neither the first launch nor the host writes it. -/
theorem entry_x (c : Dev nD) : Combine.xarr (V2 m ρ) c = xin m c := by
  show StableHlo.after hostOps1 (W1 m ρ c) (Proc.devRef .tc main_arg0) = _
  after_results
  exact W1_of_ne m ρ c main_arg0 (by decide)

/-- The second launch's first row is the bias laid as a row. -/
theorem entry_s (c : Dev nD) : Combine.srow (V2 m ρ) c = fun j => bin m c (ix1 (j 1)) := by
  have e : (V2 m ρ c main_v3 : S1x2048.Idx → EReal) = shapeCast S1x2048 (bin m c) shapeCasts_S2048_S1x2048 := by
    show StableHlo.after hostOps1 (W1 m ρ c) (Proc.devRef .tc main_v3) = _
    after_results
    rw [bias_kept]
    rfl
  show (V2 m ρ c main_v3 : S1x2048.Idx → EReal) = _
  rw [e]
  funext j
  obtain ⟨u, q, rfl⟩ : ∃ (u : Fin 1) (q : Fin 2048), j = ix2 u q := ⟨j 0, j 1, eq_ix2 j⟩
  exact shapeCast_a_1a_apply _ _ u q

/-- The second launch's second row is, entry by entry, the weight-row sum times the bias. -/
theorem entry_a (c : Dev nD) : Combine.arow (V2 m ρ) c = fun j => rowSum (win m c) (j 1) * bin m c (ix1 (j 1)) := by
  have e : (V2 m ρ c main_v4 : S1x2048.Idx → EReal)
      = shapeCast S1x2048 (mulf (F := Ideal) (φ := .f32) (shapeCast S2048 (WeightSums.sums (V0 m ρ) c) shapeCasts_S2048x1_S2048) (bin m c)) shapeCasts_S2048_S1x2048 := by
    show StableHlo.after hostOps1 (W1 m ρ c) (Proc.devRef .tc main_v4) = _
    after_results
    rw [bias_kept, sums_left]
    rfl
  show (V2 m ρ c main_v4 : S1x2048.Idx → EReal) = _
  rw [e]
  funext j
  obtain ⟨u, q, rfl⟩ : ∃ (u : Fin 1) (q : Fin 2048), j = ix2 u q := ⟨j 0, j 1, eq_ix2 j⟩
  refine (shapeCast_a_1a_apply _ _ u q).trans ?_
  show shapeCast S2048 (WeightSums.sums (V0 m ρ) c) shapeCasts_S2048x1_S2048 (ix1 q) * bin m c (ix1 q) = _
  rw [ColumnVector.shapeCast_a1_a_apply]

/-- The kernel program's result array: the kernel's arrangement of the specification, of the arguments as launched. -/
theorem result_eq (c : Dev nD) :
    (W3 m ρ c (Proc.devRef .tc main_v5) : S8192x2048.Idx → EReal) = outK (xin m c) (win m c) (bin m c) := by
  refine ((W3_arr m ρ c 3).trans (Combine.final (V2 m ρ) c)).trans ?_
  funext j
  show rowSum (Combine.xarr (V2 m ρ) c) (j 0) * Combine.srow (V2 m ρ) c (ix2 (0 : Fin 1) (j 1)) + Combine.arow (V2 m ρ) c (ix2 (0 : Fin 1) (j 1))
    = rowSum (xin m c) (j 0) * bin m c (ix1 (j 1)) + rowSum (win m c) (j 1) * bin m c (ix1 (j 1))
  rw [entry_x, entry_s, entry_a]

end Cert.KernelIdeal.Between

end
-- ==== Proof.Reference.lean ====
/-
  The reference program's result as one function of its three arguments.

  The reference sums each row of x and each row of the weights on the host (each sum started from the zero word, which is
  the real number 0), spreads the first down a column and along the rows, the second along a row and down the rows, adds
  them, and multiplies by the bias spread down the rows: at (b, o) it is (sum of row b of x + sum of row o of w) · bias o,
  the reference's arrangement of the specification.
-/
import proofs.«119376_j30133490549220_1_alg».proof.Proof.Gen.ReferenceIdeal.Read
import proofs.«119376_j30133490549220_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.Adder
open Idealize.ShloMosaic Idealize.ShloMosaic.ValueIdx

/-- The last stage of the reference, read at every index through the stages before it. -/
theorem result_eq (x : S8192x2048.Idx → EReal) (w : S2048x2048.Idx → EReal) (b : S2048.Idx → EReal) :
    val_main_v9 (F := Ideal) x w b = outR x w b := by
  funext j
  obtain ⟨p, q, rfl⟩ : ∃ (p : Fin 8192) (q : Fin 2048), j = ix2 p q := ⟨j 0, j 1, eq_ix2 j⟩
  have hx : ∀ k : Fin 2048, idx_main_v0 (idx_main_v2 (idx_main_v4 (ix2 p q))) k = ix2 p k := fun k =>
    funext fun a => Fin.ext (by match a with | ⟨0, _⟩ => rfl | ⟨1, _⟩ => rfl)
  have hw : ∀ k : Fin 2048, idx_main_v1 (idx_main_v3 (idx_main_v5 (ix2 p q))) k = ix2 q k := fun k =>
    funext fun a => Fin.ext (by match a with | ⟨0, _⟩ => rfl | ⟨1, _⟩ => rfl)
  have hb : idx_main_v7 (idx_main_v8 (ix2 p q)) = ix1 q :=
    funext fun a => Fin.ext (by match a with | ⟨0, _⟩ => rfl)
  rw [val_main_v9_apply, val_main_v6_apply, val_main_v4_apply, val_main_v2_apply, val_main_v0_apply,
    val_main_v5_apply, val_main_v3_apply, val_main_v1_apply, val_main_v8_apply, val_main_v7_apply]
  simp only [val_main_cst_apply, val_main_cst_0_apply, Ideal.mulf_def, Ideal.addf_def, Ideal.ofBits_def,
    Ideal.ofBits_zero_f32, zero_add, hx, hw, hb]
  rfl

end Cert.ReferenceIdeal.RefValue

end
-- ==== Proof.Finite.lean ====
/-
  From the printed precondition to "every entry is a real number".

  The precondition is the conjunction of three `all`s, one per argument, each of the entrywise test |v| < +∞ against the
  positive-infinity word. An `and`-reduction into one index that is 1 had a 1 at every index; |v| < +∞ on the extended
  reals rules out both infinities (|−∞| = |+∞| = +∞), which leaves the real numbers.
-/
import proofs.«119376_j30133490549220_1_alg».proof.Pre_finite_inputs
import proofs.«119376_j30133490549220_1_alg».proof.Proof.Spec
import Idealize.ShloMosaic.Lib.ReduceAll
import Idealize.ShloMosaic.Lib.ValueIdx
import Idealize.ShloMosaic.Lib.Affine
import Idealize.ShloMosaic.PureOps.Ideal.Laws

noncomputable section

namespace Cert.Pre_finite_inputs.Decode

open Cert.Pre_finite_inputs Cert.Adder
open Idealize.ShloMosaic Idealize.ShloMosaic.ValueIdx

instance : Subsingleton S_.Idx := ⟨fun a b => funext fun d => d.elim0⟩

/-- The word the test compares against is +∞. -/
theorem inf_word : Ideal.ofBits .f32 0x7F800000#32 = (⊤ : EReal) := by
  simp [Ideal.ofBits, Ideal.ieee]

/-- An extended real whose absolute value is below +∞ is a real number. -/
theorem real_of_abs_lt_top (v : EReal) (h : Ideal.cmp .olt (max v (-v)) ⊤ = 1#1) : ∃ r : ℝ, v = (r : EReal) := by
  have h' : max v (-v) < ⊤ := by
    by_contra hn
    have h0 : Ideal.cmp .olt (max v (-v)) ⊤ = 0#1 := by simp [Ideal.cmp, hn]
    rw [h0] at h
    exact absurd h (by decide)
  induction v using EReal.rec with
  | bot => simp at h'
  | coe r => exact ⟨r, rfl⟩
  | top => simp at h'

variable [Facts]
open Facts

/-- Under the printed precondition every entry of each of the three arguments is a real number. -/
theorem allReal_of_fn (x : FVec Ideal S8192x2048 .f32) (w : FVec Ideal S2048x2048 .f32) (b : FVec Ideal S2048 .f32)
    (h : fn (F := Ideal) x w b = fun _ => 1#1) : AllReal x ∧ AllReal w ∧ AllReal b := by
  have h0 := congrFun h ix0
  dsimp only [fn] at h0
  change IntOp.andi _ _ = 1#1 at h0
  obtain ⟨hxw, hb⟩ := IntOp.andi_eq_one.mp h0
  change IntOp.andi _ _ = 1#1 at hxw
  obtain ⟨hx, hw⟩ := IntOp.andi_eq_one.mp hxw
  refine ⟨fun i => ?_, fun i => ?_, fun i => ?_⟩
  · have e := Host.reduce_andi_all _ _ _ _ ix0 hx i
    exact real_of_abs_lt_top (x i) (by rw [← inf_word]; exact e)
  · have e := Host.reduce_andi_all _ _ _ _ ix0 hw i
    exact real_of_abs_lt_top (w i) (by rw [← inf_word]; exact e)
  · have e := Host.reduce_andi_all _ _ _ _ ix0 hb i
    exact real_of_abs_lt_top (b i) (by rw [← inf_word]; exact e)

end Cert.Pre_finite_inputs.Decode

end
-- ==== Proof.lean ====
/- The proof of `Cert.Claim`: the two-launch kernel and its jnp reference compute the same array over the extended reals.

   With rowSum a p = Σ_i a[p, i], the reference computes, at (b, o), (rowSum x b + rowSum w o) · bias o. The kernel's first
   launch stores the column of the weights' row sums; the host between the launches multiplies it entry by entry with the
   bias and lays both the bias and that product as rows; the second launch stores rowSum x b · bias o + (rowSum w o · bias o).
   The two arrangements differ by the distributive law, which on the extended reals holds away from the infinities; the
   precondition says every input entry is finite, so every row sum and every bias entry is a real number and the law is the
   reals' own. Neither program rewrites an operation under the idealization, so there is nothing to preserve.

   The three frames are the generated ones (the reference's is its generated run with the result dropped). The kernel's run
   with its result array named is the frame's launch called again; what that array holds is read launch by launch
   (Proof/WeightSums.lean, Proof/Combine.lean) and through the host operations between them (Proof/Between.lean); the
   reference's result is read through its stages (Proof/Reference.lean); the law is Proof/Spec.lean and the step from the
   printed precondition to real entries Proof/Finite.lean. -/
import proofs.«119376_j30133490549220_1_alg».proof.Defs
import proofs.«119376_j30133490549220_1_alg».proof.Proof.Gen.Kernel
import proofs.«119376_j30133490549220_1_alg».proof.Proof.Gen.Kernel.Skeleton
import proofs.«119376_j30133490549220_1_alg».proof.Proof.Gen.Kernel.Launch
import proofs.«119376_j30133490549220_1_alg».proof.Proof.Gen.Kernel.Points
import proofs.«119376_j30133490549220_1_alg».proof.Proof.Gen.Kernel.Frame
import proofs.«119376_j30133490549220_1_alg».proof.Proof.Gen.KernelIdeal
import proofs.«119376_j30133490549220_1_alg».proof.Proof.Gen.KernelIdeal.Skeleton
import proofs.«119376_j30133490549220_1_alg».proof.Proof.Gen.KernelIdeal.Launch
import proofs.«119376_j30133490549220_1_alg».proof.Proof.Gen.KernelIdeal.Points
import proofs.«119376_j30133490549220_1_alg».proof.Proof.Gen.KernelIdeal.Frame
import proofs.«119376_j30133490549220_1_alg».proof.Proof.Gen.ReferenceIdeal
import proofs.«119376_j30133490549220_1_alg».proof.Proof.Gen.ReferenceIdeal.Run
import proofs.«119376_j30133490549220_1_alg».proof.Proof.Gen.ReferenceIdeal.Read
import proofs.«119376_j30133490549220_1_alg».proof.Proof.Gen.Pre_finite_inputs
import proofs.«119376_j30133490549220_1_alg».proof.Proof.RunNamed
import proofs.«119376_j30133490549220_1_alg».proof.Proof.Between
import proofs.«119376_j30133490549220_1_alg».proof.Proof.Reference
import proofs.«119376_j30133490549220_1_alg».proof.Proof.Finite
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten under the idealization. -/
theorem preserves : Cert.preserves_Kernel_KernelIdeal := trivial

/-- From memories agreeing on the arguments both programs end at one array: the kernel's arrangement of the
    specification, which on finite inputs is the reference's. -/
theorem algebraic : Cert.algebraic_KernelIdeal_ReferenceIdeal := by
  intro m ρ m' ρ' hpre hagree
  refine ⟨fun c => Cert.Adder.outK (Cert.KernelIdeal.Between.xin m c) (Cert.KernelIdeal.Between.win m c) (Cert.KernelIdeal.Between.bin m c), ?_, ?_⟩
  · exact (θ_run Cert.KernelIdeal.defs _ _).mono
      (fun r h c => ⟨(h c).1.trans (Cert.KernelIdeal.Between.result_eq m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v9_eq, (hagree c).1, (hagree c).2.1, (hagree c).2.2,
      Cert.ReferenceIdeal.RefValue.result_eq]
    obtain ⟨hx, hw, hb⟩ := Cert.Pre_finite_inputs.Decode.allReal_of_fn _ _ _ (hpre c)
    exact (Cert.Adder.outK_eq_outR _ _ _ hx hw hb).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
